-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S1600000 32) (main_arg2 : IVec S1600000 32) (main_arg3 : FVec F S1600000 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S5000x64 : Shape := ⟨2, ![5000, 64]⟩
abbrev S1x64 : Shape := ⟨2, ![1, 64]⟩

abbrev nBuf : Space → Nat
  | .hbm => 27
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S64x64, .f32⟩
  | .hbm, ⟨25, _⟩ => ⟨S64x64, .f32⟩
  | .hbm, ⟨26, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .i1⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The layer both programs compute, as one function of the arrays, entry by entry, over the extended reals.

  With A the aggregated neighbour features (one row per node), X the node features, W₁, W₂ the two weight
  matrices (rows indexed by the OUTPUT channel) and b₁, b₂ the biases, the entry at node r, channel j is

      leaky ( (∑ₖ (A r k + X r k) · W₁ j k + b₁ j) + (∑ₖ (A r k · X r k) · W₂ j k + b₂ j) ),

  where leaky t is t when t ≥ 0 and slope · t otherwise, the slope being the float whose word is 0x3C23D70A
  (the same word on both sides, so it is never evaluated).  No algebraic law is needed between the two
  programs beyond re-indexing the contraction, so the inputs' finiteness is never used.
-/
import Idealize.ShloMosaic.PureOps.Ideal
import Idealize.ShloMosaic.Lib.ValueIdx

noncomputable section

open scoped BigOperators

namespace Cert.GcnLayer

open Idealize.ShloMosaic Idealize.ShloMosaic.ValueIdx

/-- Node-by-channel arrays: 100000 nodes, 64 channels. -/
abbrev Nodes : Shape := ⟨2, ![100000, 64]⟩
/-- A weight matrix: output channel by input channel. -/
abbrev Weights : Shape := ⟨2, ![64, 64]⟩
/-- A bias: one entry per output channel. -/
abbrev Chans : Shape := ⟨1, ![64]⟩

/-- The leaky rectifier on an extended real: the identity on t ≥ 0, the slope times t below. -/
def leaky (t : EReal) : EReal :=
  Scalar.select (FloatOps.cmpf (F := Ideal) (φ := .f32) .oge t (FloatOps.ofBits (F := Ideal) .f32 0x00000000#32)) t
    (FloatOps.ofBits (F := Ideal) .f32 0x3C23D70A#32 * t)

/-- One linear map with bias at node r, channel j, of a row given as a function of the input channel:
    ∑ₖ row k · W j k + b j. -/
def affine (row : Fin 64 → EReal) (W : FVec Ideal Weights .f32) (b : FVec Ideal Chans .f32) (j : Fin 64) : EReal :=
  (∑ k : Fin 64, row k * W (ix2 j k)) + b (ix1 j)

/-- The layer at node r, channel j. -/
def entry (A X : FVec Ideal Nodes .f32) (W₁ : FVec Ideal Weights .f32) (b₁ : FVec Ideal Chans .f32)
    (W₂ : FVec Ideal Weights .f32) (b₂ : FVec Ideal Chans .f32) (r : Fin 100000) (j : Fin 64) : EReal :=
  leaky (affine (fun k => A (ix2 r k) + X (ix2 r k)) W₁ b₁ j + affine (fun k => A (ix2 r k) * X (ix2 r k)) W₂ b₂ j)

/-- The layer as an array. -/
def layer (A X : FVec Ideal Nodes .f32) (W₁ : FVec Ideal Weights .f32) (b₁ : FVec Ideal Chans .f32)
    (W₂ : FVec Ideal Weights .f32) (b₂ : FVec Ideal Chans .f32) : FVec Ideal Nodes .f32 :=
  fun i => entry A X W₁ b₁ W₂ b₂ (i 0) (i 1)

theorem layer_apply (A X : FVec Ideal Nodes .f32) (W₁ : FVec Ideal Weights .f32) (b₁ : FVec Ideal Chans .f32)
    (W₂ : FVec Ideal Weights .f32) (b₂ : FVec Ideal Chans .f32) (r : Fin 100000) (j : Fin 64) :
    layer A X W₁ b₁ W₂ b₂ (ix2 r j) = entry A X W₁ b₁ W₂ b₂ r j := rfl

end Cert.GcnLayer

end
-- ==== Proof.RefLayer.lean ====
/-
  The reference's result, read entry by entry, is the layer of the aggregated features and the arguments.

  The reference forms A + X and A · X on the whole arrays, contracts each with the transposed weight matrix
  (so its entry (r, j) is the sum over k of the row entry (r, k) times W (j, k)), adds the bias broadcast over
  the nodes, adds the two parts, and selects between the sum and slope · sum by the comparison with zero.
  Each of these stages is read at an index by the generated read-at-an-index lemmas; what is written here is
  only that the composed index maps are the coordinates (r, k), (j, k) and j.
-/
import proofs.«147522_j30262339568119_1_alg».proof.Proof.Gen.ReferenceIdeal.Read
import proofs.«147522_j30262339568119_1_alg».proof.Proof.Layer

noncomputable section

open scoped BigOperators

namespace Cert.ReferenceIdeal.RefValue

open Cert.ReferenceIdeal Cert.ReferenceIdeal.Read Idealize.ShloMosaic Idealize.ShloMosaic.ValueIdx Cert.GcnLayer

/-- The left operand of the first contraction is read in row r at column k. -/
theorem lrow₁ (r : Fin 100000) (j k : Fin 64) : lidx_main_v15 (ix2 r j) k = ix2 r k :=
  funext fun a => Fin.ext (by match a with | ⟨0, _⟩ => rfl | ⟨1, _⟩ => rfl)
/-- The transposed first weight matrix at (k, j) is the matrix at (j, k). -/
theorem wcol₁ (r : Fin 100000) (j k : Fin 64) : idx_main_v14 (ridx_main_v15 (ix2 r j) k) = ix2 j k :=
  funext fun a => Fin.ext (by match a with | ⟨0, _⟩ => rfl | ⟨1, _⟩ => rfl)
/-- The first bias, broadcast over the nodes, is read at channel j. -/
theorem bias₁ (r : Fin 100000) (j : Fin 64) : idx_main_v16 (idx_main_v17 (ix2 r j)) = ix1 j :=
  funext fun a => Fin.ext (by match a with | ⟨0, _⟩ => rfl)
/-- The left operand of the second contraction is read in row r at column k. -/
theorem lrow₂ (r : Fin 100000) (j k : Fin 64) : lidx_main_v21 (ix2 r j) k = ix2 r k :=
  funext fun a => Fin.ext (by match a with | ⟨0, _⟩ => rfl | ⟨1, _⟩ => rfl)
/-- The transposed second weight matrix at (k, j) is the matrix at (j, k). -/
theorem wcol₂ (r : Fin 100000) (j k : Fin 64) : idx_main_v20 (ridx_main_v21 (ix2 r j) k) = ix2 j k :=
  funext fun a => Fin.ext (by match a with | ⟨0, _⟩ => rfl | ⟨1, _⟩ => rfl)
/-- The second bias, broadcast over the nodes, is read at channel j. -/
theorem bias₂ (r : Fin 100000) (j : Fin 64) : idx_main_v22 (idx_main_v23 (ix2 r j)) = ix1 j :=
  funext fun a => Fin.ext (by match a with | ⟨0, _⟩ => rfl)

/-- The first part at (r, j): the contraction of A + X with the first weight matrix's row j, plus the bias. -/
theorem part₁_at (x0 : FVec Ideal S100000x64 .f32) (x1 x2 : IVec S1600000 32) (x3 : FVec Ideal S1600000 .f32)
    (x4 : FVec Ideal S64x64 .f32) (x5 : FVec Ideal S64 .f32) (r : Fin 100000) (j : Fin 64) :
    val_main_v18 (F := Ideal) x0 x1 x2 x3 x4 x5 (ix2 r j)
      = affine (fun k => val_main_v12 (F := Ideal) x0 x1 x2 x3 (ix2 r k) + x0 (ix2 r k)) x4 x5 j := by
  unfold affine
  rw [val_main_v18_apply, val_main_v15_apply, val_main_v17_apply, val_main_v16_apply, bias₁]
  refine congrArg (· + x5 (ix1 j)) (Finset.sum_congr rfl fun k _ => ?_)
  rw [val_main_v13_apply, val_main_v14_apply, lrow₁, wcol₁]
  rfl

/-- The second part at (r, j): the contraction of A · X with the second weight matrix's row j, plus the bias. -/
theorem part₂_at (x0 : FVec Ideal S100000x64 .f32) (x1 x2 : IVec S1600000 32) (x3 : FVec Ideal S1600000 .f32)
    (x6 : FVec Ideal S64x64 .f32) (x7 : FVec Ideal S64 .f32) (r : Fin 100000) (j : Fin 64) :
    val_main_v24 (F := Ideal) x0 x1 x2 x3 x6 x7 (ix2 r j)
      = affine (fun k => val_main_v12 (F := Ideal) x0 x1 x2 x3 (ix2 r k) * x0 (ix2 r k)) x6 x7 j := by
  unfold affine
  rw [val_main_v24_apply, val_main_v21_apply, val_main_v23_apply, val_main_v22_apply, bias₂]
  refine congrArg (· + x7 (ix1 j)) (Finset.sum_congr rfl fun k _ => ?_)
  rw [val_main_v19_apply, val_main_v20_apply, lrow₂, wcol₂]
  rfl

/-- The reference's last stage is the layer of the scatter-added messages and the arguments. -/
theorem result_eq (x0 : FVec Ideal S100000x64 .f32) (x1 x2 : IVec S1600000 32) (x3 : FVec Ideal S1600000 .f32)
    (x4 : FVec Ideal S64x64 .f32) (x5 : FVec Ideal S64 .f32) (x6 : FVec Ideal S64x64 .f32) (x7 : FVec Ideal S64 .f32) :
    val_main_v32 (F := Ideal) x0 x1 x2 x3 x4 x5 x6 x7
      = layer (val_main_v12 (F := Ideal) x0 x1 x2 x3) x0 x4 x5 x6 x7 := by
  funext i
  obtain ⟨r, j, rfl⟩ : ∃ (r : Fin 100000) (j : Fin 64), i = ix2 r j := ⟨i 0, i 1, eq_ix2 i⟩
  rw [layer_apply]
  unfold entry leaky
  rw [val_main_v32_apply, val_main_v27_apply, val_main_v28_apply, val_main_v31_apply, val_main_v29_apply,
    val_main_v25_apply, val_main_v26_apply, val_main_v30_apply, val_main_cst_1_apply, val_main_cst_2_apply,
    part₁_at, part₂_at]
  rfl

end Cert.ReferenceIdeal.RefValue

end
-- ==== Proof.KernelBody.lean ====
/-
  The kernel body's stored value, read at one entry of its block.

  At a grid point the body holds a block of 5000 rows of the aggregated features A and of the node features X,
  the two TRANSPOSED weight matrices U₁, U₂ (input channel by output channel) and the two biases.  It forms
  A + X and A · X, multiplies each by its matrix into a zero accumulator, adds the bias as a row broadcast over
  the block's rows, adds the two parts and applies the leaky rectifier.  Over the extended reals the change of
  float format before the products is the identity and the product into a zero accumulator is the plain sum over
  the contracted channel, so the entry (p, q) of the stored block is

      leaky ( (∑ₖ (A p k + X p k) · U₁ k q + b₁ q) + (∑ₖ (A p k · X p k) · U₂ k q + b₂ q) ).
-/
import proofs.«147522_j30262339568119_1_alg».proof.Proof.Gen.KernelIdeal.Skeleton
import proofs.«147522_j30262339568119_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GcnLayer

/-! ## The product's operand indices, axis by axis -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of rows times a square matrix, into a zero accumulator, at entry (p, q): the sum over the contracted
    channel k of the row entry (p, k) times the matrix entry (k, q). -/
theorem product_at {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- A bias viewed as one row and broadcast over the block's rows reads, at (p, q), the bias at q. -/
theorem bias_at (b : FVec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-- The value the body stores, at entry (p, q) of the block. -/
theorem stored_at (a x : Vec Ideal S5000x64 .f32) (u₁ u₂ : Vec Ideal S64x64 .f32) (b₁ b₂ : Vec Ideal S64 .f32)
    (p : Fin 5000) (q : Fin 64) :
    k0_pay1 (F := Ideal) a x u₁ u₂ b₁ b₂ (ix2 p q)
      = leaky (((∑ k : Fin 64, (a (ix2 p k) + x (ix2 p k)) * u₁ (ix2 k q)) + b₁ (ix1 q))
          + ((∑ k : Fin 64, (a (ix2 p k) * x (ix2 p k)) * u₂ (ix2 k q)) + b₂ (ix1 q))) := by
  unfold k0_pay1 leaky
  simp only [select_apply, cmpf_apply, broadcast_apply, mulf_apply, addf_apply, product_at, bias_at, truncf_apply,
    shapeCast_self]

/-- The stored entry (p, q) is the layer's entry at array index i, once the block's rows are rows of the arrays at
    node i 0, the transposed matrices are the weight matrices read with the coordinates swapped at channel i 1, and
    the biases are read at channel i 1. -/
theorem stored_eq_layer (a x : Vec Ideal S5000x64 .f32) (u₁ u₂ : Vec Ideal S64x64 .f32) (b₁ b₂ : Vec Ideal S64 .f32)
    (A X : FVec Ideal Nodes .f32) (W₁ : FVec Ideal Weights .f32) (β₁ : FVec Ideal Chans .f32)
    (W₂ : FVec Ideal Weights .f32) (β₂ : FVec Ideal Chans .f32) (p : Fin 5000) (q : Fin 64) (i : Nodes.Idx)
    (ha : ∀ k : Fin 64, a (ix2 p k) = A (ix2 (i 0) k)) (hx : ∀ k : Fin 64, x (ix2 p k) = X (ix2 (i 0) k))
    (hu₁ : ∀ k : Fin 64, u₁ (ix2 k q) = W₁ (ix2 (i 1) k)) (hu₂ : ∀ k : Fin 64, u₂ (ix2 k q) = W₂ (ix2 (i 1) k))
    (hb₁ : b₁ (ix1 q) = β₁ (ix1 (i 1))) (hb₂ : b₂ (ix1 q) = β₂ (ix1 (i 1))) :
    k0_pay1 (F := Ideal) a x u₁ u₂ b₁ b₂ (ix2 p q) = layer A X W₁ β₁ W₂ β₂ i := by
  rw [stored_at]
  show _ = entry A X W₁ β₁ W₂ β₂ (i 0) (i 1)
  unfold entry affine
  rw [hb₁, hb₂]
  refine congrArg leaky (congrArg₂ (· + ·) (congrArg (· + β₁ (ix1 (i 1))) (Finset.sum_congr rfl fun k _ => ?_))
    (congrArg (· + β₂ (ix1 (i 1))) (Finset.sum_congr rfl fun k _ => ?_)))
  · rw [ha k, hx k, hu₁ k]
  · rw [ha k, hx k, hu₂ k]

end Cert.KernelIdeal.Body

end
-- ==== Proof.KernelBlocks.lean ====
/-
  From the blocks the grid points write back to the whole result array.

  The grid has 20 points; point t works on rows 5000·t … 5000·t + 4999 of the aggregated features and of the node
  features, and on the whole of the two transposed weight matrices and the two biases, and writes back rows
  5000·t … 5000·t + 4999 of the result.  What it writes back is therefore block t of ONE array, the layer of the
  arrays the region finds (the transposed matrix at (k, q) being the weight matrix at (q, k)); row r lies in the
  block of point r / 5000, so the blocks cover the array and the array ends as that layer.
-/
import proofs.«147522_j30262339568119_1_alg».proof.Proof.Gen.KernelIdeal.Value
import proofs.«147522_j30262339568119_1_alg».proof.Proof.KernelBody
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GcnLayer
open Idealize.ShloMosaic.Pipeline (Dat)

variable (m : (ℓ : Loc nD τ sig) → Buf (Elt Ideal) ℓ) (ρ : Dev nD → PrngReg)

theorem origin₂ : (![0, 0] : Fin 2 → Nat) = fun _ => 0 := funext fun a => by fin_cases a <;> rfl
theorem origin₁ : (![0] : Fin 1 → Nat) = fun _ => 0 := funext fun a => by fin_cases a <;> rfl

/-- The region finds the first weight matrix transposed. -/
theorem found_u₁ (c : Dev nD) : (V m c main_v13 : S64x64.Idx → EReal)
    = transpose S64x64 [1, 0] (m ((c : Thread nD τ).loc main_arg4)) transposes_S64x64_S64x64_1_0 := by
  dsimp only [Gen.V, Gen.hostOps0]; after_results
/-- The region finds the second weight matrix transposed. -/
theorem found_u₂ (c : Dev nD) : (V m c main_v14 : S64x64.Idx → EReal)
    = transpose S64x64 [1, 0] (m ((c : Thread nD τ).loc main_arg6)) transposes_S64x64_S64x64_1_0 := by
  dsimp only [Gen.V, Gen.hostOps0]; after_results

/-- The layer of the aggregated features the region finds and of the argument arrays. -/
abbrev result (c : Dev nD) : FVec Ideal S100000x64 .f32 :=
  layer (V m c main_v12) (m ((c : Thread nD τ).loc main_arg0)) (m ((c : Thread nD τ).loc main_arg4))
    (m ((c : Thread nD τ).loc main_arg5)) (m ((c : Thread nD τ).loc main_arg6)) (m ((c : Thread nD τ).loc main_arg7))

/-- The printed index maps over the grid: the two row-blocked inputs move with the output, whose block index is
    the point; every other block index is zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- A window's block at a point, read at an index of the block, is the array the region finds at the index the
    block's rectangle places it at. -/
theorem rows_agg (c : Dev nD) (t : Fin cfg0.N) (y : S5000x64.Idx) :
    iblk m c 0 t y = V m c main_v12 (((cfg0.win 0).blk t).view.emb y) := by
  unfold iblk; exact (View.read_apply _ _).trans (cast_eq _ _)
theorem rows_feat (c : Dev nD) (t : Fin cfg0.N) (y : S5000x64.Idx) :
    iblk m c 1 t y = V m c main_arg0 (((cfg0.win 1).blk t).view.emb y) := by
  unfold iblk; exact (View.read_apply _ _).trans (cast_eq _ _)
theorem whole_u₁ (c : Dev nD) (t : Fin cfg0.N) (y : S64x64.Idx) :
    iblk m c 2 t y = V m c main_v13 (((cfg0.win 2).blk t).view.emb y) := by
  unfold iblk; exact (View.read_apply _ _).trans (cast_eq _ _)
theorem whole_b₁ (c : Dev nD) (t : Fin cfg0.N) (y : S64.Idx) :
    iblk m c 3 t y = V m c main_arg5 (((cfg0.win 3).blk t).view.emb y) := by
  unfold iblk; exact (View.read_apply _ _).trans (cast_eq _ _)
theorem whole_u₂ (c : Dev nD) (t : Fin cfg0.N) (y : S64x64.Idx) :
    iblk m c 4 t y = V m c main_v14 (((cfg0.win 4).blk t).view.emb y) := by
  unfold iblk; exact (View.read_apply _ _).trans (cast_eq _ _)
theorem whole_b₂ (c : Dev nD) (t : Fin cfg0.N) (y : S64.Idx) :
    iblk m c 5 t y = V m c main_arg7 (((cfg0.win 5).blk t).view.emb y) := by
  unfold iblk; exact (View.read_apply _ _).trans (cast_eq _ _)

/-- WHAT POINT t WRITES BACK is block t of the layer. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin₂]
  simp only [View.ld_unit_zero (S := S5000x64) origin₂, View.ld_unit_zero (S := S64x64) origin₂,
    View.ld_unit_zero (S := S64) origin₁]
  obtain ⟨e0a, e0b, e1a, e1b, e2a, e2b, e3, e4a, e4b, e5, e6a, e6b⟩ := idx_facts t
  funext y
  obtain ⟨p, q, rfl⟩ : ∃ (p : Fin 5000) (q : Fin 64), y = ix2 p q := ⟨y 0, y 1, eq_ix2 y⟩
  refine Eq.trans ?_ ((View.read_apply _ _).trans (cast_eq _ _)).symm
  show k0_pay1 (F := Ideal) (iblk m c 0 t) (iblk m c 1 t) (iblk m c 2 t) (iblk m c 4 t) (iblk m c 3 t) (iblk m c 5 t) (ix2 p q)
    = result m c (((cfg0.win 6).blk t).view.emb (ix2 p q))
  have hr : ((((cfg0.win 6).blk t).view.emb (ix2 p q)) 0).val = win0_6.index t (0 : Fin 2) * 5000 + 1 * p.val := rfl
  have hj : ((((cfg0.win 6).blk t).view.emb (ix2 p q)) 1).val = win0_6.index t (1 : Fin 2) * 64 + 1 * q.val := rfl
  refine Body.stored_eq_layer (iblk m c 0 t) (iblk m c 1 t) (iblk m c 2 t) (iblk m c 4 t) (iblk m c 3 t) (iblk m c 5 t)
    (V m c main_v12) (m ((c : Thread nD τ).loc main_arg0)) (m ((c : Thread nD τ).loc main_arg4))
    (m ((c : Thread nD τ).loc main_arg5)) (m ((c : Thread nD τ).loc main_arg6)) (m ((c : Thread nD τ).loc main_arg7))
    p q (((cfg0.win 6).blk t).view.emb (ix2 p q)) ?_ ?_ ?_ ?_ ?_ ?_
  · intro k
    rw [rows_agg]
    refine congrArg (V m c main_v12) (funext fun a => Fin.ext ?_)
    match a with
    | ⟨0, _⟩ => show win0_0.index t (0 : Fin 2) * 5000 + 1 * p.val = _; rw [hr]; omega
    | ⟨1, _⟩ => show win0_0.index t (1 : Fin 2) * 64 + 1 * k.val = k.val; omega
  · intro k
    rw [rows_feat, V_main_arg0]
    refine congrArg (m ((c : Thread nD τ).loc main_arg0)) (funext fun a => Fin.ext ?_)
    match a with
    | ⟨0, _⟩ => show win0_1.index t (0 : Fin 2) * 5000 + 1 * p.val = _; rw [hr]; omega
    | ⟨1, _⟩ => show win0_1.index t (1 : Fin 2) * 64 + 1 * k.val = k.val; omega
  · intro k
    have e : ((cfg0.win 2).blk t).view.emb (ix2 k q) = ix2 k q := funext fun a => Fin.ext (by
      match a with
      | ⟨0, _⟩ => show win0_2.index t (0 : Fin 2) * 64 + 1 * k.val = k.val; omega
      | ⟨1, _⟩ => show win0_2.index t (1 : Fin 2) * 64 + 1 * q.val = q.val; omega)
    rw [whole_u₁, e, found_u₁, transpose_ix2_apply]
    refine congrArg (m ((c : Thread nD τ).loc main_arg4)) (funext fun a => Fin.ext ?_)
    match a with
    | ⟨0, _⟩ => show q.val = _; rw [hj]; omega
    | ⟨1, _⟩ => rfl
  · intro k
    have e : ((cfg0.win 4).blk t).view.emb (ix2 k q) = ix2 k q := funext fun a => Fin.ext (by
      match a with
      | ⟨0, _⟩ => show win0_4.index t (0 : Fin 2) * 64 + 1 * k.val = k.val; omega
      | ⟨1, _⟩ => show win0_4.index t (1 : Fin 2) * 64 + 1 * q.val = q.val; omega)
    rw [whole_u₂, e, found_u₂, transpose_ix2_apply]
    refine congrArg (m ((c : Thread nD τ).loc main_arg6)) (funext fun a => Fin.ext ?_)
    match a with
    | ⟨0, _⟩ => show q.val = _; rw [hj]; omega
    | ⟨1, _⟩ => rfl
  · rw [whole_b₁, V_main_arg5]
    refine congrArg (m ((c : Thread nD τ).loc main_arg5)) (funext fun a => Fin.ext ?_)
    match a with
    | ⟨0, _⟩ => show win0_3.index t (0 : Fin 1) * 64 + 1 * q.val = _; rw [hj]; omega
  · rw [whole_b₂, V_main_arg7]
    refine congrArg (m ((c : Thread nD τ).loc main_arg7)) (funext fun a => Fin.ext ?_)
    match a with
    | ⟨0, _⟩ => show win0_5.index t (0 : Fin 1) * 64 + 1 * q.val = _; rw [hj]; omega

/-- An index of the array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v15).slice (win0_6.rect t)).set ↔ _
  rw [View.set_slice_whole, Rect.mem_set_unit]
  exact Iff.rfl

/-- Row r of the array lies in the block of point r / 5000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, e6a, e6b⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE ARRAY after the run is the layer. -/
theorem final (c : Dev nD) : (dats m 0 c).arrAt 6 cfg0.N = result m c :=
  (dats m 0 c).arrAt_eq_of_cover 6 (result m c) (fun t _ => flushed_eq m c t) cover

/-- The kernel's run: the result array ends as the layer of what the region finds, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks

end
-- ==== Proof.lean ====
/-
  The certificate of the graph-convolution layer: the kernel against its reference, over the extended reals.

  Both programs first gather the features of each edge's source node, scale them by the edge's weight and add them
  into the row of the edge's target node: the aggregated features A, computed by the same host operations on both
  sides.  The reference then computes leaky ((A + X) W₁ᵀ + b₁ + (A · X) W₂ᵀ + b₂) on the whole arrays; the kernel
  transposes the two weight matrices on the host and computes the same expression 5000 rows at a time.  Entry by
  entry both are the one function `Cert.GcnLayer.layer` of A and the arguments: the reference by reading its
  operations at an index, the kernel by reading the value each grid point writes back and covering the result array
  by the points' blocks.  The three programs' runs are the generated frames and the reference's generated run; the
  idealization rewrote nothing, so its ledger is empty.
-/
import proofs.«147522_j30262339568119_1_alg».proof.Defs
import proofs.«147522_j30262339568119_1_alg».proof.Proof.Gen.Kernel
import proofs.«147522_j30262339568119_1_alg».proof.Proof.Gen.Kernel.Skeleton
import proofs.«147522_j30262339568119_1_alg».proof.Proof.Gen.Kernel.Launch
import proofs.«147522_j30262339568119_1_alg».proof.Proof.Gen.Kernel.Points
import proofs.«147522_j30262339568119_1_alg».proof.Proof.Gen.Kernel.Frame
import proofs.«147522_j30262339568119_1_alg».proof.Proof.Gen.KernelIdeal
import proofs.«147522_j30262339568119_1_alg».proof.Proof.Gen.KernelIdeal.Skeleton
import proofs.«147522_j30262339568119_1_alg».proof.Proof.Gen.KernelIdeal.Launch
import proofs.«147522_j30262339568119_1_alg».proof.Proof.Gen.KernelIdeal.Points
import proofs.«147522_j30262339568119_1_alg».proof.Proof.Gen.KernelIdeal.Frame
import proofs.«147522_j30262339568119_1_alg».proof.Proof.Gen.ReferenceIdeal
import proofs.«147522_j30262339568119_1_alg».proof.Proof.Gen.Pre_finite_inputs
import proofs.«147522_j30262339568119_1_alg».proof.Proof.Gen.KernelIdeal.Value
import proofs.«147522_j30262339568119_1_alg».proof.Proof.Gen.ReferenceIdeal.Run
import proofs.«147522_j30262339568119_1_alg».proof.Proof.Gen.ReferenceIdeal.Read
import proofs.«147522_j30262339568119_1_alg».proof.Proof.Layer
import proofs.«147522_j30262339568119_1_alg».proof.Proof.RefLayer
import proofs.«147522_j30262339568119_1_alg».proof.Proof.KernelBody
import proofs.«147522_j30262339568119_1_alg».proof.Proof.KernelBlocks
import Idealize.ShloMosaic.Adequacy
import Idealize.ShloMosaic.Init
import Idealize.ShloMosaic.Lib.StableHlo.Run

noncomputable section

namespace Cert.Proof

open Idealize.ShloMosaic Idealize.ShloMosaic.TcCoe Idealize.SL.Sem

/-- The aggregated features the kernel's region finds are the reference's scatter-added messages of the same
    arguments: the two programs reach them by the same host operations. -/
theorem aggregated_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v12 : Cert.KernelIdeal.S100000x64.Idx → EReal)
      = Cert.ReferenceIdeal.Read.val_main_v12 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]; after_results; rfl

/-- Both idealized programs end with the layer of the aggregated features and the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v32_eq, Cert.ReferenceIdeal.RefValue.result_eq, h0, h1, h2, h3, h4, h5, h6, h7]
  exact congrArg (fun A => Cert.GcnLayer.layer A _ _ _ _ _) (aggregated_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
